-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) (main_arg1 : FVec F S16x2048x128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  main_v8
-- ==== Kernel.lean ====
abbrev S16x2048x128 : Shape := ⟨3, ![16, 2048, 128]⟩
abbrev S16x2048x2048 : Shape := ⟨3, ![16, 2048, 2048]⟩
abbrev S1x1024x128 : Shape := ⟨3, ![1, 1024, 128]⟩
abbrev S1x1024x1024 : Shape := ⟨3, ![1, 1024, 1024]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1024x1024 : Shape := ⟨2, ![1024, 1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x2048, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x1024, .f32⟩
  | .local _ .vmem, ⟨5, _⟩ => ⟨S1x1024x1024, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x128_S1024 : S1024x128.Reduces [1] S1024
  shapeCasts_S1024_S1024x1 : S1024.ShapeCasts S1024x1
  bitsLt_bf16_f32 : FTy.bits .bf16 < FTy.bits .f32
  transposes_S1024x128_p1_0_S128x1024 : S1024x128.Transposes [1, 0] S128x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S16x2048x128.size a
  hwx0_0 : ∀ i : grid0.Coords, EltTy.bits .f32 = 32 ∨ (Rect.block (s := S16x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S16x2048x128.size a
  hwx0_1 : ∀ i : grid0.Coords, EltTy.bits .f32 = 32 ∨ (Rect.block (s := S16x2048x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x2048x2048.size a
  hwx0_2 : ∀ i : grid0.Coords, EltTy.bits .f32 = 32 ∨ (Rect.block (s := S16x2048x2048) S1x1024x1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S_ : Shape := ⟨0, ![]⟩
abbrev S16x2048 : Shape := ⟨2, ![16, 2048]⟩
abbrev S16x2048x2048 : Shape := ⟨3, ![16, 2048, 2048]⟩
abbrev S16x2048x1 : Shape := ⟨3, ![16, 2048, 1]⟩
abbrev S16x1x2048 : Shape := ⟨3, ![16, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S_, .f32⟩
  | .hbm, ⟨4, _⟩ => ⟨S16x2048, .f32⟩
  | .hbm, ⟨5, _⟩ => ⟨S16x2048x128, .f32⟩
  | .hbm, ⟨6, _⟩ => ⟨S_, .f32⟩
  | .hbm, ⟨7, _⟩ => ⟨S16x2048, .f32⟩
  | .hbm, ⟨8, _⟩ => ⟨S16x2048x2048, .f32⟩
  | .hbm, ⟨9, _⟩ => ⟨S16x2048x1, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048x2048, .f32⟩
  | .hbm, ⟨20, _⟩ => ⟨S16x2048x2048, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S16x2048x128_S16x2048_d2 : S16x2048x128.ReducesTo [2] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  dot_S16x2048x128_S16x2048x128_S16x2048x2048_2_2_1_1_0_0_wf : DotDims.WF S16x2048x128 S16x2048x128 S16x2048x2048 [2] [2] [1] [1] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf

class Facts : Prop extends Facts₀ where

variable [Facts]
-- ==== Proof.CostSpec.lean ====
/-
  The pairwise squared-distance cost, as one function of the two argument arrays.

  For a batch `b` and rows `r` of `x`, `s` of `y` (each row a vector of 128 entries) the cost is
  `max (‖x[b,r]‖² + ‖y[b,s]‖² − 2·⟨x[b,r], y[b,s]⟩) 0` on the extended reals: the two squared norms and the
  inner product are sums over the 128 coordinates, the factor `2` is the float pattern both programs
  write, and the clamp is against the real zero. Nothing here depends on a program.
-/
import Idealize.ShloMosaic.PureOps.Ideal
import Idealize.ShloMosaic.PureOps.Ideal.Laws
import Idealize.ShloMosaic.Lib.ValueIdx

noncomputable section

namespace Cert.PairCost

open Idealize.ShloMosaic Idealize.ShloMosaic.ValueIdx

/-- The shape of each argument: 16 batches of 2048 rows of 128 coordinates. -/
abbrev SArg : Shape := ⟨3, ![16, 2048, 128]⟩
/-- The shape of the result: per batch, a 2048 × 2048 table of costs. -/
abbrev SOut : Shape := ⟨3, ![16, 2048, 2048]⟩

/-- The inner product of row `r` of `u` and row `s` of `v` in batch `b`: the sum over the 128 coordinates
    of the products. The squared norm of a row is its inner product with itself. -/
def inner (u v : SArg.Idx → EReal) (b : Fin 16) (r s : Fin 2048) : EReal :=
  ∑ d : Fin 128, u (ix3 b r d) * v (ix3 b s d)

/-- The cost of the pair (row `r` of `x`, row `s` of `y`) in batch `b`. -/
def costAt (x y : SArg.Idx → EReal) (b : Fin 16) (r s : Fin 2048) : EReal :=
  max ((inner x x b r r + inner y y b s s) - Ideal.ofBits .f32 0x40000000#32 * inner x y b r s) 0

/-- The whole table of costs: entry `(b, r, s)` is the cost of that pair. -/
def cost (x y : SArg.Idx → EReal) : SOut.Idx → EReal := fun i => costAt x y (i 0) (i 1) (i 2)

theorem cost_apply (x y : SArg.Idx → EReal) (b : Fin 16) (r s : Fin 2048) :
    cost x y (ix3 b r s) = costAt x y b r s := rfl

end Cert.PairCost

end
-- ==== Proof.RefCost.lean ====
/-
  The reference's result is the cost table.

  The reference squares each argument, sums the squares over the last axis (from the initial value zero),
  takes the batched product of `x` with `y` over the same axis, lays the two vectors of squared norms out
  as a column and a row, and combines: `max ((‖x‖² + ‖y‖²) − 2·⟨x, y⟩) 0`. Read one operation at a time at
  an index `(b, r, s)`, every stage lands on the rows `(b, r)` of `x` and `(b, s)` of `y`, so the result is
  `PairCost.cost x y` there.
-/
import proofs.«146646_j18451179503711_1_alg».proof.Proof.Gen.ReferenceIdeal.Read
import proofs.«146646_j18451179503711_1_alg».proof.Proof.CostSpec

noncomputable section

namespace Cert.ReferenceIdeal.RefCost

open Cert.ReferenceIdeal Cert.ReferenceIdeal.Gen Cert.ReferenceIdeal.Read
open Idealize.ShloMosaic Idealize.ShloMosaic.ValueIdx Cert.PairCost

/-- The reference's last stage, at the ideal values, is the cost table of its two arguments. -/
theorem result_eq (x y : (⟨S16x2048x128, .f32⟩ : BufTy).Contents (Elt Ideal)) :
    val_main_v14 (F := Ideal) x y = cost x y := by
  funext i
  -- the rows each stage reads, by coordinates
  have e1 : ∀ k : Fin 128, idx_main_v1 (idx_main_v5 (idx_main_v7 i)) k = ix3 (i 0) (i 1) k := fun k =>
    funext fun a => Fin.ext (by match a with | ⟨0, _⟩ => rfl | ⟨1, _⟩ => rfl | ⟨2, _⟩ => rfl)
  have e3 : ∀ k : Fin 128, idx_main_v3 (idx_main_v6 (idx_main_v8 i)) k = ix3 (i 0) (i 2) k := fun k =>
    funext fun a => Fin.ext (by match a with | ⟨0, _⟩ => rfl | ⟨1, _⟩ => rfl | ⟨2, _⟩ => rfl)
  have el : ∀ k : Fin 128, lidx_main_v4 i k = ix3 (i 0) (i 1) k := fun k =>
    funext fun a => Fin.ext (by match a with | ⟨0, _⟩ => rfl | ⟨1, _⟩ => rfl | ⟨2, _⟩ => rfl)
  have er : ∀ k : Fin 128, ridx_main_v4 i k = ix3 (i 0) (i 2) k := fun k =>
    funext fun a => Fin.ext (by match a with | ⟨0, _⟩ => rfl | ⟨1, _⟩ => rfl | ⟨2, _⟩ => rfl)
  rw [val_main_v14_apply, val_main_v12_apply, val_main_v9_apply, val_main_v7_apply, val_main_v5_apply,
    val_main_v1_apply, val_main_v8_apply, val_main_v6_apply, val_main_v3_apply, val_main_v11_apply,
    val_main_v10_apply, val_main_v4_apply, val_main_v13_apply]
  simp only [val_main_v0_apply, val_main_v2_apply, val_main_cst_apply, val_main_cst_0_apply,
    val_main_cst_1_apply, val_main_cst_2_apply, e1, e3, el, er, Ideal.mulf_def, Ideal.addf_def, Ideal.subf_def,
    Ideal.maximumf_def, Ideal.ofBits_def, Ideal.ofBits_zero_f32, zero_add]
  rfl

end Cert.ReferenceIdeal.RefCost

end
-- ==== Proof.TileCost.lean ====
/-
  One tile of the kernel's result, entry by entry.

  At a grid point the body holds a block of 1024 rows of `x` and a block of 1024 rows of `y` (each with a
  leading unit axis) and stores a 1024 × 1024 tile. Entry `(p, q)` of the tile is
  `max ((Σ_d xb[p,d]² + Σ_d yb[q,d]²) − 2 · Σ_d xb[p,d]·yb[q,d]) 0`: the row sums of squares are kept as a
  column, one of them turned into a row, both spread over the tile; the product of the `x` block with the
  transposed `y` block, into a zero accumulator, is the table of inner products; and at the ideal values the
  narrowing of the factors to sixteen bits changes nothing.
-/
import proofs.«146646_j18451179503711_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileCost

open Cert.KernelIdeal Cert.KernelIdeal.Gen Idealize.ShloMosaic Idealize.ShloMosaic.ValueIdx

/-! ## The layout steps, each read at an entry -/

/-- The sums of a block's rows, kept as a column: entry `(p, 0)` is the sum over the 128 coordinates of row `p`. -/
theorem rowSums_col (v : FVec Ideal S1024x128 .f32) (h : S1024x128.Reduces [1] S1024) (hφ : FKind.Formats .f32)
    (hacc : (0x00000000#32 : BitVec FTy.f32.bits) = FKind.add.neutral .f32 hφ) (hc : S1024.ShapeCasts S1024x1)
    (p : Fin 1024) (z : Fin 1) :
    shapeCast S1024x1 (multiReduction (F := Ideal) .add [1] S1024 v 0x00000000#32 h hφ hacc) hc (ix2 p z)
      = ∑ k : Fin 128, v (ix2 p k) := by
  refine (shapeCast_apply _ hc (ix2 p z) (ix1 p) ?_).trans ?_
  · rw [Shape.rowMajor_val_one, Shape.rowMajor_val_two]
    show p.val = p.val * 1 + z.val
    have := z.isLt; omega
  · refine (Ideal.multiReduction_add_single v _ h hφ hacc (ix1 p)).trans ?_
    refine Finset.sum_congr rfl fun k _ => congrArg v (funext fun a => Fin.ext ?_)
    match a with
    | ⟨0, _⟩ => rfl
    | ⟨1, _⟩ => rfl

/-- A column spread over all 1024 columns reads, at `(p, q)`, the column's entry `p`. -/
theorem col_spread (w : FVec Ideal S1024x1 .f32) (hb : S1024x1.Broadcasts S1024x1024) (p q : Fin 1024) :
    broadcastTo S1024x1024 w hb (ix2 p q) = w (ix2 p (0 : Fin 1)) := by
  refine broadcastTo_apply w hb (ix2 p q) (ix2 p (0 : Fin 1)) fun a => ?_
  match a with
  | ⟨0, _⟩ =>
    show p.val = if (1024 : ℕ) = 1 then 0 else p.val
    rw [if_neg (by decide)]
  | ⟨1, _⟩ =>
    show (0 : ℕ) = if (1 : ℕ) = 1 then 0 else q.val
    rw [if_pos rfl]

/-- A column turned into a row and spread over all 1024 rows reads, at `(p, q)`, the column's entry `q`. -/
theorem row_spread (w : FVec Ideal S1024x1 .f32) (ht : S1024x1.Transposes [1, 0] S1x1024)
    (hb : S1x1024.Broadcasts S1024x1024) (p q : Fin 1024) :
    broadcastTo S1024x1024 (transpose S1x1024 [1, 0] w ht) hb (ix2 p q) = w (ix2 q (0 : Fin 1)) :=
  (broadcastTo_1b_ab_apply _ hb p q).trans (transpose_ix2_apply w ht (0 : Fin 1) q)

/-! ## The product of the two blocks -/

theorem lhs_axis0 (i : S1024x1024.Idx) (k : dot_S1024x128_S128x1024_S1024x1024_1_0_0_1_n_n.contr.Idx) :
    (dot_S1024x128_S128x1024_S1024x1024_1_0_0_1_n_n.lhsIdx i k 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem lhs_axis1 (i : S1024x1024.Idx) (k : dot_S1024x128_S128x1024_S1024x1024_1_0_0_1_n_n.contr.Idx) :
    (dot_S1024x128_S128x1024_S1024x1024_1_0_0_1_n_n.lhsIdx i k 1).val = (k ⟨0, by decide⟩).val :=
  dot_S1024x128_S128x1024_S1024x1024_1_0_0_1_n_n.lhsIdx_val_of_single rfl i k
theorem rhs_axis0 (i : S1024x1024.Idx) (k : dot_S1024x128_S128x1024_S1024x1024_1_0_0_1_n_n.contr.Idx) :
    (dot_S1024x128_S128x1024_S1024x1024_1_0_0_1_n_n.rhsIdx i k 0).val = (k ⟨0, by decide⟩).val :=
  dot_S1024x128_S128x1024_S1024x1024_1_0_0_1_n_n.rhsIdx_val_of_single rfl i k
theorem rhs_axis1 (i : S1024x1024.Idx) (k : dot_S1024x128_S128x1024_S1024x1024_1_0_0_1_n_n.contr.Idx) :
    (dot_S1024x128_S128x1024_S1024x1024_1_0_0_1_n_n.rhsIdx i k 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The product of a block `a` of rows with the transpose of a block `b` of rows, into a zero accumulator, is
    at `(p, q)` the inner product of row `p` of `a` with row `q` of `b`. -/
theorem gram (a b : FVec Ideal S1024x128 .bf16) (ht : S1024x128.Transposes [1, 0] S128x1024) (p q : Fin 1024) :
    matmul dot_S1024x128_S128x1024_S1024x1024_1_0_0_1_n_n none a (transpose S128x1024 [1, 0] b ht) (constant S1024x1024 .f32 0x00000000#32) (ix2 p q)
      = ∑ k : Fin 128, a (ix2 p k) * b (ix2 q k) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k :=
    funext fun c => Fin.ext (by
      match c with
      | ⟨0, _⟩ => exact lhs_axis0 _ _
      | ⟨1, _⟩ => exact (lhs_axis1 _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q :=
    funext fun c => Fin.ext (by
      match c with
      | ⟨0, _⟩ => exact (rhs_axis0 _ _).trans hk
      | ⟨1, _⟩ => exact rhs_axis1 _ _)
  rw [el, er]
  exact congrArg (a (ix2 p k) * ·) (transpose_ix2_apply b ht k q)

/-! ## The tile -/

/-- Entry `(p, q)` of the tile the body stores, from the two blocks it loaded. -/
theorem tile_apply (xb yb : Vec Ideal S1x1024x128 .f32) (u : Fin 1) (p q : Fin 1024) :
    k0_pay1 (F := Ideal) xb yb (ix3 u p q)
      = max (((∑ d : Fin 128, xb (ix3 (0 : Fin 1) p d) * xb (ix3 (0 : Fin 1) p d))
              + ∑ d : Fin 128, yb (ix3 (0 : Fin 1) q d) * yb (ix3 (0 : Fin 1) q d))
            - Ideal.ofBits .f32 0x40000000#32 * ∑ d : Fin 128, xb (ix3 (0 : Fin 1) p d) * yb (ix3 (0 : Fin 1) q d)) 0 := by
  unfold k0_pay1
  refine (shapeCast_ab_1ab_apply _ _ u p q).trans ?_
  rw [maximumf_apply, subf_apply, addf_apply, mulf_apply, broadcast_apply, broadcast_apply]
  refine congrArg₂ max (congrArg₂ (· - ·) (congrArg₂ (· + ·) ?_ ?_) (congrArg (_ * ·) ?_)) Ideal.ofBits_zero_f32
  · refine (col_spread _ _ p q).trans ((rowSums_col _ _ _ _ _ p 0).trans ?_)
    refine Finset.sum_congr rfl fun d _ => ?_
    rw [mulf_apply, shapeCast_1ab_ab_apply]
  · refine (row_spread _ _ _ p q).trans ((rowSums_col _ _ _ _ _ q 0).trans ?_)
    refine Finset.sum_congr rfl fun d _ => ?_
    rw [mulf_apply, shapeCast_1ab_ab_apply]
  · refine (gram _ _ _ p q).trans ?_
    refine Finset.sum_congr rfl fun d _ => ?_
    rw [truncf_apply, truncf_apply, shapeCast_1ab_ab_apply, shapeCast_1ab_ab_apply]

end Cert.KernelIdeal.TileCost

end
-- ==== Proof.CostArray.lean ====
/-
  From tiles to the whole table.

  The grid has one point per (batch, row tile of `x`, row tile of `y`): 16 × 2 × 2 points. At a point the kernel
  holds rows `1024·i … 1024·i + 1023` of `x` and rows `1024·j … 1024·j + 1023` of `y` in batch `b`, and writes back
  the tile `(b, i, j)` of the result. Entry `(p, q)` of that tile is the cost of the pair (row `1024·i + p` of `x`,
  row `1024·j + q` of `y`), so every point writes back its tile of ONE table, `PairCost.cost x y`; the 64 tiles
  cover the result array, which therefore ends holding that table.
-/
import proofs.«146646_j18451179503711_1_alg».proof.Proof.Gen.KernelIdeal.Value
import proofs.«146646_j18451179503711_1_alg».proof.Proof.TileCost
import proofs.«146646_j18451179503711_1_alg».proof.Proof.CostSpec

noncomputable section

namespace Cert.KernelIdeal.CostArray

open Cert.KernelIdeal Cert.KernelIdeal.Gen Idealize.ShloMosaic Idealize.ShloMosaic.TcCoe Idealize.SL.Sem
open Idealize.ShloMosaic.ValueIdx Cert.PairCost
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- Where the three blocks sit at a grid point: the `x` block shares the tile's batch and row-tile index, the
    `y` block shares its batch and column-tile index, and neither is cut along the 128 coordinates. -/
theorem block_places : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = win0_2.index t (2 : Fin 3)
    ∧ win0_1.index t (2 : Fin 3) = 0 :=
  (by decide +kernel : ∀ t : Fin grid0.N, _)

/-- Every tile index `(b, i, j)` is some grid point's. -/
theorem tile_onto : ∀ (q0 : Fin 16) (q1 : Fin 2) (q2 : Fin 2), ∃ t : Fin cfg0.N, win0_2.index t = ![q0.val, q1.val, q2.val] :=
  (by decide +kernel : ∀ (q0 : Fin 16) (q1 : Fin 2) (q2 : Fin 2), ∃ t : Fin grid0.N, win0_2.index t = ![q0.val, q1.val, q2.val])

/-- A tile entry is the cost of the pair of rows its two blocks hold at `p` and `q`: if row `p` of the `x` block is
    row `(b, r)` of `X` and row `q` of the `y` block is row `(b, s)` of `Y`, entry `(p, q)` is `costAt X Y b r s`. -/
theorem tile_is_cost (X Y : SArg.Idx → EReal) (xb yb : Vec Ideal S1x1024x128 .f32)
    (b : Fin 16) (r s : Fin 2048) (u : Fin 1) (p q : Fin 1024)
    (hx : ∀ d : Fin 128, xb (ix3 (0 : Fin 1) p d) = X (ix3 b r d))
    (hy : ∀ d : Fin 128, yb (ix3 (0 : Fin 1) q d) = Y (ix3 b s d)) :
    k0_pay1 (F := Ideal) xb yb (ix3 u p q) = costAt X Y b r s := by
  rw [TileCost.tile_apply]
  simp only [hx, hy]
  rfl

/-- What a grid point writes back is its tile of the cost table of the two argument arrays. -/
theorem flushed_eq (c : Dev nD) (t : Fin cfg0.N) :
    (dats m 0 c).flushed 2 t
      = ((cfg0.win 2).blk t).view.read (Elt Ideal) (cost (V m c main_arg0) (V m c main_arg1)) := by
  rw [Value.flushed2]
  unfold out0_2
  rw [View.canon_unit_zero zero_offsets]
  simp only [View.ld_unit_zero (S := S1x1024x128) zero_offsets]
  obtain ⟨e0, e1, e2, e3, e4, e5⟩ := block_places t
  funext j
  obtain ⟨u, p, q, rfl⟩ : ∃ (u : Fin 1) (p q : Fin 1024), j = ix3 u p q := ⟨j 0, j 1, j 2, eq_ix3 j⟩
  show k0_pay1 (F := Ideal) (iblk m c 0 t) (iblk m c 1 t) (ix3 u p q)
    = costAt (V m c main_arg0) (V m c main_arg1) ((((cfg0.win 2).blk t).view.emb (ix3 u p q)) 0)
        ((((cfg0.win 2).blk t).view.emb (ix3 u p q)) 1) ((((cfg0.win 2).blk t).view.emb (ix3 u p q)) 2)
  refine tile_is_cost (V m c main_arg0) (V m c main_arg1) (iblk m c 0 t) (iblk m c 1 t) _ _ _ u p q ?_ ?_
  · intro d
    show V m c main_arg0 (((cfg0.win 0).blk t).view.emb (ix3 (0 : Fin 1) p d)) = V m c main_arg0 _
    refine congrArg (V m c main_arg0) (funext fun a => Fin.ext ?_)
    match a with
    | ⟨0, _⟩ =>
      show win0_0.index t (0 : Fin 3) * 1 + 1 * 0 = win0_2.index t (0 : Fin 3) * 1 + 1 * u.val
      have := u.isLt; omega
    | ⟨1, _⟩ =>
      show win0_0.index t (1 : Fin 3) * 1024 + 1 * p.val = win0_2.index t (1 : Fin 3) * 1024 + 1 * p.val
      omega
    | ⟨2, _⟩ =>
      show win0_0.index t (2 : Fin 3) * 128 + 1 * d.val = d.val
      omega
  · intro d
    show V m c main_arg1 (((cfg0.win 1).blk t).view.emb (ix3 (0 : Fin 1) q d)) = V m c main_arg1 _
    refine congrArg (V m c main_arg1) (funext fun a => Fin.ext ?_)
    match a with
    | ⟨0, _⟩ =>
      show win0_1.index t (0 : Fin 3) * 1 + 1 * 0 = win0_2.index t (0 : Fin 3) * 1 + 1 * u.val
      have := u.isLt; omega
    | ⟨1, _⟩ =>
      show win0_1.index t (1 : Fin 3) * 1024 + 1 * q.val = win0_2.index t (2 : Fin 3) * 1024 + 1 * q.val
      omega
    | ⟨2, _⟩ =>
      show win0_1.index t (2 : Fin 3) * 128 + 1 * d.val = d.val
      omega

/-- An index of the result array is in a point's tile iff each coordinate is in the tile's range on its axis. -/
theorem mem_tile (t : Fin cfg0.N) (i : S16x2048x2048.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0).slice (win0_2.rect t)).set ↔ _
  rw [View.set_slice_whole, Rect.mem_set_unit]
  exact Iff.rfl

/-- The tiles cover the result array: index `(b, r, s)` lies in the tile `(b, r / 1024, s / 1024)`. -/
theorem cover (i : S16x2048x2048.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 2048 := (i 2).isLt
  obtain ⟨t, ht⟩ := tile_onto ⟨(i 0).val, hi0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_tile]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1024 ≤ (i 2).val ∧ (i 2).val < win0_2.index t (2 : Fin 3) * 1024 + 1024
    omega

/-- After the run the result array is the cost table of the two argument arrays. -/
theorem final (c : Dev nD) :
    (dats m 0 c).arrAt 2 cfg0.N
      = cost (m ((c : Thread nD τ).loc main_arg0)) (m ((c : Thread nD τ).loc main_arg1)) :=
  (dats m 0 c).arrAt_eq_of_cover 2 _ (fun t _ => flushed_eq m c t) cover

/-- The kernel's run at the ideal values: it terminates with the result array at the cost table of the arguments, and
    the arguments as they were. -/
theorem run : θ_run defs (onTc (τ := τ) (main (F := Ideal))) ⟨m, fun _ => 0, ρ⟩ fun r => ∀ c : Dev nD,
      r.2.mem ((c : Thread nD τ).loc main_v0)
        = cost (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.CostArray

end
-- ==== Proof.lean ====
/-
  The kernel computes, tile by tile, the table of pairwise squared distances
  `out[b, r, s] = max (‖x[b, r]‖² + ‖y[b, s]‖² − 2·⟨x[b, r], y[b, s]⟩) 0`, and the reference computes the same table
  with whole-array operations. On the extended reals both are the same expression of the same sums, term by
  term and in the same order, so no law beyond reading each side at an index is needed, and the finiteness of
  the inputs is never used.

  The pieces: `PairCost.cost` is the table as one function of the arguments (CostSpec); the reference's last
  stage is that function (RefCost); a tile entry of the kernel is the cost of the pair of rows its blocks hold
  (TileCost), so each grid point writes back its tile of the table and the tiles cover the result (CostArray).
  The three programs' runs end with their arguments unchanged; the idealization rewrote nothing.
-/
import proofs.«146646_j18451179503711_1_alg».proof.Defs
import proofs.«146646_j18451179503711_1_alg».proof.Proof.Gen.Kernel
import proofs.«146646_j18451179503711_1_alg».proof.Proof.Gen.Kernel.Skeleton
import proofs.«146646_j18451179503711_1_alg».proof.Proof.Gen.Kernel.Launch
import proofs.«146646_j18451179503711_1_alg».proof.Proof.Gen.Kernel.Points
import proofs.«146646_j18451179503711_1_alg».proof.Proof.Gen.Kernel.Frame
import proofs.«146646_j18451179503711_1_alg».proof.Proof.Gen.KernelIdeal
import proofs.«146646_j18451179503711_1_alg».proof.Proof.Gen.KernelIdeal.Skeleton
import proofs.«146646_j18451179503711_1_alg».proof.Proof.Gen.KernelIdeal.Launch
import proofs.«146646_j18451179503711_1_alg».proof.Proof.Gen.KernelIdeal.Points
import proofs.«146646_j18451179503711_1_alg».proof.Proof.Gen.KernelIdeal.Frame
import proofs.«146646_j18451179503711_1_alg».proof.Proof.Gen.ReferenceIdeal
import proofs.«146646_j18451179503711_1_alg».proof.Proof.Gen.KernelIdeal.Value
import proofs.«146646_j18451179503711_1_alg».proof.Proof.Gen.ReferenceIdeal.Run
import proofs.«146646_j18451179503711_1_alg».proof.Proof.Gen.ReferenceIdeal.Read
import proofs.«146646_j18451179503711_1_alg».proof.Proof.Gen.Pre_finite_inputs
import proofs.«146646_j18451179503711_1_alg».proof.Proof.CostSpec
import proofs.«146646_j18451179503711_1_alg».proof.Proof.RefCost
import proofs.«146646_j18451179503711_1_alg».proof.Proof.TileCost
import proofs.«146646_j18451179503711_1_alg».proof.Proof.CostArray
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a sequence of whole-array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and `y`, both programs end with the cost table of `x` and `y`. -/
theorem algebraic : Cert.algebraic_KernelIdeal_ReferenceIdeal := by
  intro m ρ m' ρ' _ hagree
  refine ⟨_, Cert.KernelIdeal.CostArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefCost.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
